-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x512 : Shape := ⟨2, ![409600, 512]⟩
abbrev S409600 : Shape := ⟨1, ![409600]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S409600x512 : S_.BroadcastsInDim S409600x512 (![] : Fin 0 → Fin S409600x512.rank)
  reducesTo_S409600x512_S_d0_1 : S409600x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S256x128 .f32) (main_arg9 : FVec F S128 .f32) (main_arg10 : FVec F S256x128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg10
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S409600x512 .f32) (main_arg1 : IVec S409600 32) (main_arg2 : IVec S409600 32) (main_arg3 : IVec S40960 32) (main_arg4 : IVec S40960 32) (main_arg5 : FVec F S512x256 .f32) (main_arg6 : FVec F S256 .f32) (main_arg7 : FVec F S512x256 .f32) (main_arg8 : FVec F S256x128 .f32) (main_arg9 : FVec F S128 .f32) (main_arg10 : FVec F S256x128 .f32) : IVec S_ 1 :=
  let main_v0 : FVec F S409600x512 .f32 := Host.absf main_arg0
  let main_cst : FVec F S_ .f32 := constant S_ .f32 0x7F800000#32
  let main_v1 : FVec F S409600x512 .f32 := broadcastInDim S409600x512 ![] bcast_S_S409600x512 main_cst
  let main_v2 : IVec S409600x512 1 := cmpf .olt main_v0 main_v1
  let main_c : IVec S_ 1 := constantI S_ 1 1#1
  let main_v3 : IVec S_ 1 := (fun x v => Host.reduce IntOp.andi x v reducesTo_S409600x512_S_d0_1 h_S_) main_v2 main_c
  let main_v4 : FVec F S512x256 .f32 := Host.absf main_arg5
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg7
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg8 main_arg9 main_arg10 main_v13 main_v16
-- ==== Kernel.lean ====
abbrev S409600x512 : Shape := ⟨2, ![409600, 512]⟩
abbrev S409600 : Shape := ⟨1, ![409600]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S409600x1 : Shape := ⟨2, ![409600, 1]⟩
abbrev S40960x512 : Shape := ⟨2, ![40960, 512]⟩
abbrev S40960x1 : Shape := ⟨2, ![40960, 1]⟩
abbrev S1x256 : Shape := ⟨2, ![1, 256]⟩
abbrev S40960x256 : Shape := ⟨2, ![40960, 256]⟩
abbrev S2048x512 : Shape := ⟨2, ![2048, 512]⟩
abbrev S2048x1 : Shape := ⟨2, ![2048, 1]⟩
abbrev S2048x256 : Shape := ⟨2, ![2048, 256]⟩
abbrev S4096x256 : Shape := ⟨2, ![4096, 256]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1024x256 : Shape := ⟨2, ![1024, 256]⟩
abbrev S1024x1 : Shape := ⟨2, ![1024, 1]⟩
abbrev S1024x128 : Shape := ⟨2, ![1024, 128]⟩

abbrev nBuf : Space → Nat
  | .hbm => 69
  | .vmem => 22
  | .smem => 0
  | _ => 0

abbrev bufTy : (tb : Table) → Fin (tcTables nBuf tb) → BufTy
  | .hbm, ⟨0, _⟩ => ⟨S409600x512, .f32⟩
  | .hbm, ⟨1, _⟩ => ⟨S409600, .i32⟩
  | .hbm, ⟨2, _⟩ => ⟨S409600, .i32⟩
  | .hbm, ⟨3, _⟩ => ⟨S40960, .i32⟩
  | .hbm, ⟨4, _⟩ => ⟨S40960, .i32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S_, .i32⟩
  | .hbm, ⟨12, _⟩ => ⟨S409600, .i32⟩
  | .hbm, ⟨13, _⟩ => ⟨S409600, .i1⟩
  | .hbm, ⟨14, _⟩ => ⟨S_, .i32⟩
  | .hbm, ⟨15, _⟩ => ⟨S409600, .i32⟩
  | .hbm, ⟨16, _⟩ => ⟨S409600, .i32⟩
  | .hbm, ⟨17, _⟩ => ⟨S409600, .i32⟩
  | .hbm, ⟨18, _⟩ => ⟨S409600x1, .i32⟩
  | .hbm, ⟨19, _⟩ => ⟨S409600x512, .f32⟩
  | .hbm, ⟨20, _⟩ => ⟨S_, .f32⟩
  | .hbm, ⟨21, _⟩ => ⟨S40960x512, .f32⟩
  | .hbm, ⟨22, _⟩ => ⟨S409600x1, .i32⟩
  | .hbm, ⟨23, _⟩ => ⟨S40960x512, .f32⟩
  | .hbm, ⟨24, _⟩ => ⟨S_, .f32⟩
  | .hbm, ⟨25, _⟩ => ⟨S409600, .f32⟩
  | .hbm, ⟨26, _⟩ => ⟨S_, .f32⟩
  | .hbm, ⟨27, _⟩ => ⟨S40960, .f32⟩
  | .hbm, ⟨28, _⟩ => ⟨S409600x1, .i32⟩
  | .hbm, ⟨29, _⟩ => ⟨S40960, .f32⟩
  | .hbm, ⟨30, _⟩ => ⟨S_, .f32⟩
  | .hbm, ⟨31, _⟩ => ⟨S40960, .f32⟩
  | .hbm, ⟨32, _⟩ => ⟨S40960, .f32⟩
  | .hbm, ⟨33, _⟩ => ⟨S_, .f32⟩
  | .hbm, ⟨34, _⟩ => ⟨S40960, .f32⟩
  | .hbm, ⟨35, _⟩ => ⟨S40960, .f32⟩
  | .hbm, ⟨36, _⟩ => ⟨S40960x1, .f32⟩
  | .hbm, ⟨37, _⟩ => ⟨S40960x512, .f32⟩
  | .hbm, ⟨38, _⟩ => ⟨S1x256, .f32⟩
  | .hbm, ⟨39, _⟩ => ⟨S40960x256, .f32⟩
  | .hbm, ⟨40, _⟩ => ⟨S_, .i32⟩
  | .hbm, ⟨41, _⟩ => ⟨S40960, .i32⟩
  | .hbm, ⟨42, _⟩ => ⟨S40960, .i1⟩
  | .hbm, ⟨43, _⟩ => ⟨S_, .i32⟩
  | .hbm, ⟨44, _⟩ => ⟨S40960, .i32⟩
  | .hbm, ⟨45, _⟩ => ⟨S40960, .i32⟩
  | .hbm, ⟨46, _⟩ => ⟨S40960, .i32⟩
  | .hbm, ⟨47, _⟩ => ⟨S40960x1, .i32⟩
  | .hbm, ⟨48, _⟩ => ⟨S40960x256, .f32⟩
  | .hbm, ⟨49, _⟩ => ⟨S_, .f32⟩
  | .hbm, ⟨50, _⟩ => ⟨S4096x256, .f32⟩
  | .hbm, ⟨51, _⟩ => ⟨S40960x1, .i32⟩
  | .hbm, ⟨52, _⟩ => ⟨S4096x256, .f32⟩
  | .hbm, ⟨53, _⟩ => ⟨S_, .f32⟩
  | .hbm, ⟨54, _⟩ => ⟨S40960, .f32⟩
  | .hbm, ⟨55, _⟩ => ⟨S_, .f32⟩
  | .hbm, ⟨56, _⟩ => ⟨S4096, .f32⟩
  | .hbm, ⟨57, _⟩ => ⟨S40960x1, .i32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S4096x256, .f32⟩
  | .hbm, ⟨67, _⟩ => ⟨S1x128, .f32⟩
  | .hbm, ⟨68, _⟩ => ⟨S4096x128, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S2048x512, .f32⟩
  | .local _ .vmem, ⟨5, _⟩ => ⟨S2048x512, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S2048x256, .f32⟩
  | .local _ .vmem, ⟨10, _⟩ => ⟨S2048x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S256x128, .f32⟩
  | .local _ .vmem, ⟨18, _⟩ => ⟨S1x128, .f32⟩
  | .local _ .vmem, ⟨19, _⟩ => ⟨S256x128, .f32⟩
  | .local _ .vmem, ⟨20, _⟩ => ⟨S1024x128, .f32⟩
  | .local _ .vmem, ⟨21, _⟩ => ⟨S1024x128, .f32⟩
  | _, _ => ⟨S409600x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  bcast_S_S40960x512 : S_.BroadcastsInDim S40960x512 (![] : Fin 0 → Fin S40960x512.rank)
  bcast_S_S40960 : S_.BroadcastsInDim S40960 (![] : Fin 0 → Fin S40960.rank)
  shapeCasts_S40960_S40960x1 : S40960.ShapeCasts S40960x1
  slices_S409600x512_S40960x512_0_0 : S409600x512.Slices ![0, 0] S40960x512
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  shapeCasts_S4096_S4096x1 : S4096.ShapeCasts S4096x1
  slices_S40960x256_S4096x256_0_0 : S40960x256.Slices ![0, 0] S4096x256
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  gather_S409600x512_S409600x1_S409600x512_1_0_n_n_0_1_1512_wf : GatherDims.WF S409600x512 S409600x1 S409600x512 [1] [0] [] [0] [] 1 ![1, 512]
  scatter_S40960x512_S409600x1_S409600x512_1_0_0_1_wf : ScatterDims.WF S40960x512 S409600x1 S409600x512 [1] [0] [0] 1
  scatter_S40960_S409600x1_S409600_n_0_0_1_wf : ScatterDims.WF S40960 S409600x1 S409600 [] [0] [0] 1
  dot_S2048x512_S512x256_S2048x256_1_0_0_1_n_n_wf : DotDims.WF S2048x512 S512x256 S2048x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S40960x512.size a
  hwx0_0 : ∀ i : grid0.Coords, EltTy.bits .f32 = 32 ∨ (Rect.block (s := S40960x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S40960x1.size a
  hwx0_1 : ∀ i : grid0.Coords, EltTy.bits .f32 = 32 ∨ (Rect.block (s := S40960x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S40960x512.size a
  hwx0_2 : ∀ i : grid0.Coords, EltTy.bits .f32 = 32 ∨ (Rect.block (s := S40960x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S40960x256.size a
  hwx0_6 : ∀ i : grid0.Coords, EltTy.bits .f32 = 32 ∨ (Rect.block (s := S40960x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S4096x128.size a
  hwx1_6 : ∀ i : grid1.Coords, EltTy.bits .f32 = 32 ∨ (Rect.block (s := S4096x128) S1024x128.size (cc1_transform_6 i) (hinb1_6 i)).WholeWords (EltTy.packing .f32)

variable [Facts₀]

def gather_S409600x512_S409600x1_S409600x512_1_0_n_n_0_1_1512 : GatherDims S409600x512 S409600x1 S409600x512 where
  offsetDims := [1]
  collapsedSliceDims := [0]
  operandBatchingDims := []
  startIndicesBatchingDims := []
  startIndexMap := [0]
  indexVectorDim := 1
  sliceSizes := ![1, 512]
  wf := gather_S409600x512_S409600x1_S409600x512_1_0_n_n_0_1_1512_wf
def scatter_S40960x512_S409600x1_S409600x512_1_0_0_1 : ScatterDims S40960x512 S409600x1 S409600x512 where
  updateWindowDims := [1]
  insertedWindowDims := [0]
  scatterDimsToOperandDims := [0]
  indexVectorDim := 1
  wf := scatter_S40960x512_S409600x1_S409600x512_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S409600x512 : Shape := ⟨2, ![409600, 512]⟩
abbrev S409600 : Shape := ⟨1, ![409600]⟩
abbrev S40960 : Shape := ⟨1, ![40960]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S409600x1 : Shape := ⟨2, ![409600, 1]⟩
abbrev S40960x512 : Shape := ⟨2, ![40960, 512]⟩
abbrev S40960x1 : Shape := ⟨2, ![40960, 1]⟩
abbrev S40960x256 : Shape := ⟨2, ![40960, 256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S409600x512, .f32⟩
  | .hbm, ⟨1, _⟩ => ⟨S409600, .i32⟩
  | .hbm, ⟨2, _⟩ => ⟨S409600, .i32⟩
  | .hbm, ⟨3, _⟩ => ⟨S40960, .i32⟩
  | .hbm, ⟨4, _⟩ => ⟨S40960, .i32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S_, .i32⟩
  | .hbm, ⟨12, _⟩ => ⟨S409600, .i32⟩
  | .hbm, ⟨13, _⟩ => ⟨S409600, .i1⟩
  | .hbm, ⟨14, _⟩ => ⟨S_, .i32⟩
  | .hbm, ⟨15, _⟩ => ⟨S409600, .i32⟩
  | .hbm, ⟨16, _⟩ => ⟨S409600, .i32⟩
  | .hbm, ⟨17, _⟩ => ⟨S409600, .i32⟩
  | .hbm, ⟨18, _⟩ => ⟨S409600x1, .i32⟩
  | .hbm, ⟨19, _⟩ => ⟨S409600x512, .f32⟩
  | .hbm, ⟨20, _⟩ => ⟨S_, .f32⟩
  | .hbm, ⟨21, _⟩ => ⟨S40960x512, .f32⟩
  | .hbm, ⟨22, _⟩ => ⟨S409600x1, .i32⟩
  | .hbm, ⟨23, _⟩ => ⟨S40960x512, .f32⟩
  | .hbm, ⟨24, _⟩ => ⟨S_, .f32⟩
  | .hbm, ⟨25, _⟩ => ⟨S409600, .f32⟩
  | .hbm, ⟨26, _⟩ => ⟨S_, .f32⟩
  | .hbm, ⟨27, _⟩ => ⟨S40960, .f32⟩
  | .hbm, ⟨28, _⟩ => ⟨S409600x1, .i32⟩
  | .hbm, ⟨29, _⟩ => ⟨S40960, .f32⟩
  | .hbm, ⟨30, _⟩ => ⟨S_, .f32⟩
  | .hbm, ⟨31, _⟩ => ⟨S40960, .f32⟩
  | .hbm, ⟨32, _⟩ => ⟨S40960, .f32⟩
  | .hbm, ⟨33, _⟩ => ⟨S40960x1, .f32⟩
  | .hbm, ⟨34, _⟩ => ⟨S40960x512, .f32⟩
  | .hbm, ⟨35, _⟩ => ⟨S40960x512, .f32⟩
  | .hbm, ⟨36, _⟩ => ⟨S40960x512, .f32⟩
  | .hbm, ⟨37, _⟩ => ⟨S40960x256, .f32⟩
  | .hbm, ⟨38, _⟩ => ⟨S1x256, .f32⟩
  | .hbm, ⟨39, _⟩ => ⟨S40960x256, .f32⟩
  | .hbm, ⟨40, _⟩ => ⟨S40960x256, .f32⟩
  | .hbm, ⟨41, _⟩ => ⟨S40960x256, .f32⟩
  | .hbm, ⟨42, _⟩ => ⟨S40960x256, .f32⟩
  | .hbm, ⟨43, _⟩ => ⟨S_, .f32⟩
  | .hbm, ⟨44, _⟩ => ⟨S40960x256, .f32⟩
  | .hbm, ⟨45, _⟩ => ⟨S40960x256, .f32⟩
  | .hbm, ⟨46, _⟩ => ⟨S_, .i32⟩
  | .hbm, ⟨47, _⟩ => ⟨S40960, .i32⟩
  | .hbm, ⟨48, _⟩ => ⟨S40960, .i1⟩
  | .hbm, ⟨49, _⟩ => ⟨S_, .i32⟩
  | .hbm, ⟨50, _⟩ => ⟨S40960, .i32⟩
  | .hbm, ⟨51, _⟩ => ⟨S40960, .i32⟩
  | .hbm, ⟨52, _⟩ => ⟨S40960, .i32⟩
  | .hbm, ⟨53, _⟩ => ⟨S40960x1, .i32⟩
  | .hbm, ⟨54, _⟩ => ⟨S40960x256, .f32⟩
  | .hbm, ⟨55, _⟩ => ⟨S_, .f32⟩
  | .hbm, ⟨56, _⟩ => ⟨S4096x256, .f32⟩
  | .hbm, ⟨57, _⟩ => ⟨S40960x1, .i32⟩
  | .hbm, ⟨58, _⟩ => ⟨S4096x256, .f32⟩
  | .hbm, ⟨59, _⟩ => ⟨S_, .f32⟩
  | .hbm, ⟨60, _⟩ => ⟨S40960, .f32⟩
  | .hbm, ⟨61, _⟩ => ⟨S_, .f32⟩
  | .hbm, ⟨62, _⟩ => ⟨S4096, .f32⟩
  | .hbm, ⟨63, _⟩ => ⟨S40960x1, .i32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x128, .f32⟩
  | .hbm, ⟨73, _⟩ => ⟨S1x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | _, _ => ⟨S409600x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  bcast_S_S40960x512 : S_.BroadcastsInDim S40960x512 (![] : Fin 0 → Fin S40960x512.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x512_0_1 : S40960x1.BroadcastsInDim S40960x512 (![0, 1] : Fin 2 → Fin S40960x512.rank)
  slices_S409600x512_S40960x512_0_0 : S409600x512.Slices ![0, 0] S40960x512
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  bcast_S_S40960x256 : S_.BroadcastsInDim S40960x256 (![] : Fin 0 → Fin S40960x256.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S40960x256_S4096x256_0_0 : S40960x256.Slices ![0, 0] S4096x256
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  gather_S409600x512_S409600x1_S409600x512_1_0_n_n_0_1_1512_wf : GatherDims.WF S409600x512 S409600x1 S409600x512 [1] [0] [] [0] [] 1 ![1, 512]
  scatter_S40960x512_S409600x1_S409600x512_1_0_0_1_wf : ScatterDims.WF S40960x512 S409600x1 S409600x512 [1] [0] [0] 1
  scatter_S40960_S409600x1_S409600_n_0_0_1_wf : ScatterDims.WF S40960 S409600x1 S409600 [] [0] [0] 1
  dot_S40960x512_S512x256_S40960x256_1_0_0_1_n_n_wf : DotDims.WF S40960x512 S512x256 S40960x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x128_S4096x128_1_0_0_1_n_n_wf : DotDims.WF S4096x256 S256x128 S4096x128 [1] [0] [0] [1] [] []

variable [Facts₀]

def gather_S409600x512_S409600x1_S409600x512_1_0_n_n_0_1_1512 : GatherDims S409600x512 S409600x1 S409600x512 where
  offsetDims := [1]
  collapsedSliceDims := [0]
  operandBatchingDims := []
  startIndicesBatchingDims := []
  startIndexMap := [0]
  indexVectorDim := 1
  sliceSizes := ![1, 512]
  wf := gather_S409600x512_S409600x1_S409600x512_1_0_n_n_0_1_1512_wf
def scatter_S40960x512_S409600x1_S409600x512_1_0_0_1 : ScatterDims S40960x512 S409600x1 S409600x512 where
  updateWindowDims := [1]
  insertedWindowDims := [0]
  scatterDimsToOperandDims := [0]
  indexVectorDim := 1
  wf := scatter_S40960x512_S409600x1_S409600x512_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S40960x512_S512x256_S40960x256_1_0_0_1_n_n : DotDims S40960x512 S512x256 S40960x256 where
  lhsContracting := [1]
  rhsContracting := [0]
  lhsNonContracting := [0]
  rhsNonContracting := [1]
  lhsBatch := []
  rhsBatch := []
  wf := dot_S40960x512_S512x256_S40960x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LibSageRows.lean ====
/-
  One layer of a mean-aggregating graph convolution, read along a row, for any number of rows and any widths.
  For a target node r the layer takes the sum a of its neighbours' feature rows, the number of neighbours clipped
  below at one, c, the node's own row x, two weight matrices and a bias:
      out = (a / c) · Wl + b + x · Wr .
  A kernel receives the reciprocal s = 1 / c as a one-column array and computes ((a * s) · Wl + x · Wr) + b on a
  block of rows; a host program divides and computes ((a / c) · Wl + b) + x · Wr on all rows. On the extended
  reals a quotient by a nonzero c is the product with the inverse of c, and so is 1 / c, hence a * (1 / c) = a / c
  with no finiteness needed; the two orders of the three summands agree because addition there is commutative and
  associative. The kernel's block products into a zero accumulator and the host's dot_general are the same sums
  over the contracted coordinate, and a change of float format changes no entry.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import proofs.«169818_j73787538145697_1_alg».proof.Proof.LibDenseRows
import proofs.«169818_j73787538145697_1_alg».proof.Proof.LibKeepdims

noncomputable section

namespace Cert.LibSageRows

open Idealize.ShloMosaic Idealize.ShloMosaic.ValueIdx
open Cert.LibDenseRows (Sh2 Sh1 Sh0 zeroW)

/-- The f32 word of one, kept as a word. -/
abbrev oneW : EReal := Ideal.ofBits .f32 0x3F800000#32

variable {R K N : ℕ}

/-! ## One row -/

/-- One row in the kernel's arrangement: the neighbour sum scaled by a factor s, then both products, then the bias. -/
def rowK (a : Fin K → EReal) (s : EReal) (x : Fin K → EReal) (Wl Wr : Fin K → Fin N → EReal) (b : Fin N → EReal) :
    Fin N → EReal :=
  fun n => ((∑ k : Fin K, (a k * s) * Wl k n) + ∑ k : Fin K, x k * Wr k n) + b n

/-- One row in the host's arrangement: the neighbour sum divided by c, its product plus the bias, then the other product. -/
def rowH (a : Fin K → EReal) (c : EReal) (x : Fin K → EReal) (Wl Wr : Fin K → Fin N → EReal) (b : Fin N → EReal) :
    Fin N → EReal :=
  fun n => ((∑ k : Fin K, Ideal.div (a k) c * Wl k n) + b n) + ∑ k : Fin K, x k * Wr k n

/-- Scaling by 1 / c is dividing by c, for c ≠ 0 (at the infinities too: both are the product with c⁻¹). -/
theorem mul_div_one (a c : EReal) (hc : c ≠ 0) : a * Ideal.div 1 c = Ideal.div a c := by
  rw [Ideal.div, Ideal.div, if_neg hc, if_neg hc, one_mul]

theorem rowK_eq_rowH (a : Fin K → EReal) (c : EReal) (hc : c ≠ 0) (x : Fin K → EReal) (Wl Wr : Fin K → Fin N → EReal)
    (b : Fin N → EReal) : rowK a (Ideal.div 1 c) x Wl Wr b = rowH a c x Wl Wr b := by
  funext n
  unfold rowK rowH
  simp only [mul_div_one _ _ hc]
  rw [add_right_comm]

/-- A count clipped below at one is not zero. -/
theorem max_one_ne_zero (t : EReal) : max t oneW ≠ 0 := by
  have h1 : oneW = 1 := Ideal.ofBits_one_f32
  have : (0 : EReal) < max t oneW := lt_of_lt_of_le (by rw [h1]; exact zero_lt_one) (le_max_right _ _)
  exact ne_of_gt this

/-! ## All rows -/

/-- The layer on all R rows, kernel's arrangement, from the neighbour sums A, the column of factors S, the nodes'
    own rows X, the weights and the bias as a one-row matrix. -/
def sageK (A : (Sh2 R K).Idx → EReal) (S : (Sh2 R 1).Idx → EReal) (X : (Sh2 R K).Idx → EReal)
    (Wl : (Sh2 K N).Idx → EReal) (b : (Sh2 1 N).Idx → EReal) (Wr : (Sh2 K N).Idx → EReal) : (Sh2 R N).Idx → EReal :=
  fun i => rowK (fun k => A (ix2 (i 0) k)) (S (ix2 (i 0) (0 : Fin 1))) (fun k => X (ix2 (i 0) k))
    (fun k n => Wl (ix2 k n)) (fun k n => Wr (ix2 k n)) (fun n => b (ix2 (0 : Fin 1) n)) (i 1)

/-- The layer on all R rows, host's arrangement, from the neighbour sums, the clipped counts as a vector, the own
    rows, the weights and the bias as a vector. -/
def sageH (A : (Sh2 R K).Idx → EReal) (C : (Sh1 R).Idx → EReal) (X : (Sh2 R K).Idx → EReal)
    (Wl : (Sh2 K N).Idx → EReal) (b : (Sh1 N).Idx → EReal) (Wr : (Sh2 K N).Idx → EReal) : (Sh2 R N).Idx → EReal :=
  fun i => rowH (fun k => A (ix2 (i 0) k)) (C (ix1 (i 0))) (fun k => X (ix2 (i 0) k))
    (fun k n => Wl (ix2 k n)) (fun k n => Wr (ix2 k n)) (fun n => b (ix1 n)) (i 1)

/-- The rectifier on every entry. -/
def reluArr (Z : (Sh2 R N).Idx → EReal) : (Sh2 R N).Idx → EReal := fun i => max (Z i) zeroW

theorem sageK_apply (A : (Sh2 R K).Idx → EReal) (S : (Sh2 R 1).Idx → EReal) (X : (Sh2 R K).Idx → EReal)
    (Wl : (Sh2 K N).Idx → EReal) (b : (Sh2 1 N).Idx → EReal) (Wr : (Sh2 K N).Idx → EReal) (r : Fin R) (n : Fin N) :
    sageK A S X Wl b Wr (ix2 r n) = rowK (fun k => A (ix2 r k)) (S (ix2 r (0 : Fin 1))) (fun k => X (ix2 r k))
      (fun k n => Wl (ix2 k n)) (fun k n => Wr (ix2 k n)) (fun n => b (ix2 (0 : Fin 1) n)) n := rfl

theorem sageH_apply (A : (Sh2 R K).Idx → EReal) (C : (Sh1 R).Idx → EReal) (X : (Sh2 R K).Idx → EReal)
    (Wl : (Sh2 K N).Idx → EReal) (b : (Sh1 N).Idx → EReal) (Wr : (Sh2 K N).Idx → EReal) (r : Fin R) (n : Fin N) :
    sageH A C X Wl b Wr (ix2 r n) = rowH (fun k => A (ix2 r k)) (C (ix1 r)) (fun k => X (ix2 r k))
      (fun k n => Wl (ix2 k n)) (fun k n => Wr (ix2 k n)) (fun n => b (ix1 n)) n := rfl

/-- Row r of the layer depends on row r of A, S and X only: two families of arrays whose rows r and r' agree give
    the same entries along those rows. -/
theorem sageK_congr_row {R' : ℕ} (A : (Sh2 R K).Idx → EReal) (S : (Sh2 R 1).Idx → EReal) (X : (Sh2 R K).Idx → EReal)
    (A' : (Sh2 R' K).Idx → EReal) (S' : (Sh2 R' 1).Idx → EReal) (X' : (Sh2 R' K).Idx → EReal)
    (Wl : (Sh2 K N).Idx → EReal) (b : (Sh2 1 N).Idx → EReal) (Wr : (Sh2 K N).Idx → EReal) (r : Fin R) (r' : Fin R')
    (hA : ∀ k : Fin K, A (ix2 r k) = A' (ix2 r' k)) (hS : S (ix2 r (0 : Fin 1)) = S' (ix2 r' (0 : Fin 1)))
    (hX : ∀ k : Fin K, X (ix2 r k) = X' (ix2 r' k)) (n : Fin N) :
    sageK A S X Wl b Wr (ix2 r n) = sageK A' S' X' Wl b Wr (ix2 r' n) := by
  rw [sageK_apply, sageK_apply]
  simp only [hA, hS, hX]

/-! ## The kernel's spelling of the layer on a block -/

/-- The kernel's body on a block of R rows — the block of neighbour sums times the broadcast column of factors, both
    operands of each product changed to a narrower float format, the two block products into zero accumulators added,
    then the bias row broadcast down the rows — is the layer in the kernel's arrangement. (The casts of an array to its own
    shape that the body carries are the identity.) -/
theorem kernel_block_eq (A : FVec Ideal (Sh2 R K) .f32) (S : FVec Ideal (Sh2 R 1) .f32) (X : FVec Ideal (Sh2 R K) .f32)
    (Wl Wr : FVec Ideal (Sh2 K N) .f32) (b : FVec Ideal (Sh2 1 N) .f32)
    (hA : (Sh2 R K).ShapeCasts (Sh2 R K)) (hS : (Sh2 R 1).ShapeCasts (Sh2 R 1)) (hSb : (Sh2 R 1).Broadcasts (Sh2 R K))
    (hb : (Sh2 1 N).ShapeCasts (Sh2 1 N)) (hbb : (Sh2 1 N).Broadcasts (Sh2 R N)) (hlt : FTy.bf16.bits < FTy.f32.bits) :
    addf (addf
        (matmul (DotDims.plain R K N) none
          (truncf .bf16 (mulf (shapeCast (Sh2 R K) A hA) (broadcastTo (Sh2 R K) (shapeCast (Sh2 R 1) (shapeCast (Sh2 R 1) S hS) hS) hSb)) hlt)
          (truncf .bf16 Wl hlt) (constant (Sh2 R N) .f32 0x00000000#32))
        (matmul (DotDims.plain R K N) none (truncf .bf16 (shapeCast (Sh2 R K) X hA) hlt) (truncf .bf16 Wr hlt)
          (constant (Sh2 R N) .f32 0x00000000#32)))
      (broadcastTo (Sh2 R N) (shapeCast (Sh2 1 N) (shapeCast (Sh2 1 N) b hb) hb) hbb)
    = sageK A S X Wl b Wr := by
  funext i
  obtain ⟨r, n, rfl⟩ : ∃ (r : Fin R) (n : Fin N), i = ix2 r n := ⟨i 0, i 1, eq_ix2 i⟩
  simp only [shapeCast_self]
  rw [addf_apply, addf_apply, LibDenseRows.matmul_plain_zero_apply, LibDenseRows.matmul_plain_zero_apply,
    broadcastTo_1b_ab_apply, sageK_apply]
  unfold rowK
  simp only [truncf_apply, mulf_apply, LibKeepdims.broadcastTo_a1_ab_apply]

/-! ## The host's spelling of the layer on all rows -/

/-- The host's layer — the neighbour sums divided by the clipped counts broadcast as a column and then across the
    columns, a dot_general with the first weights, plus the bias broadcast in two steps, plus a dot_general of the own rows
    with the second weights — is the layer in the host's arrangement. -/
theorem host_layer_eq (A : FVec Ideal (Sh2 R K) .f32) (C : FVec Ideal (Sh1 R) .f32) (X : FVec Ideal (Sh2 R K) .f32)
    (Wl Wr : FVec Ideal (Sh2 K N) .f32) (b : FVec Ideal (Sh1 N) .f32)
    (h1 : (Sh1 R).BroadcastsInDim (Sh2 R 1) ![0]) (h2 : (Sh2 R 1).BroadcastsInDim (Sh2 R K) ![0, 1])
    (hb1 : (Sh1 N).BroadcastsInDim (Sh2 1 N) ![1]) (hb2 : (Sh2 1 N).BroadcastsInDim (Sh2 R N) ![0, 1]) :
    addf (addf
        (Host.dotGeneral (DotDims.plain R K N) none
          (Host.divf A (broadcastInDim (Sh2 R K) ![0, 1] h2 (broadcastInDim (Sh2 R 1) ![0] h1 C))) Wl)
        (broadcastInDim (Sh2 R N) ![0, 1] hb2 (broadcastInDim (Sh2 1 N) ![1] hb1 b)))
      (Host.dotGeneral (DotDims.plain R K N) none X Wr)
    = sageH A C X Wl b Wr := by
  funext i
  obtain ⟨r, n, rfl⟩ : ∃ (r : Fin R) (n : Fin N), i = ix2 r n := ⟨i 0, i 1, eq_ix2 i⟩
  rw [addf_apply, addf_apply, StackMember.dotGeneral_plain_apply, StackMember.dotGeneral_plain_apply,
    LibDenseRows.biasRows_apply, sageH_apply]
  unfold rowH
  have hcol : ∀ k : Fin K, broadcastInDim (Sh2 R K) ![0, 1] h2 (broadcastInDim (Sh2 R 1) ![0] h1 C) (ix2 r k) = C (ix1 r) := by
    intro k
    rw [broadcastInDim_apply ![0, 1] h2 _ (ix2 r k) (ix2 r (0 : Fin 1)) (fun a => by
      match a with
      | ⟨0, _⟩ =>
        show r.val = if R = 1 then 0 else r.val
        split
        · have := r.isLt; omega
        · rfl
      | ⟨1, _⟩ =>
        show 0 = if (1 : ℕ) = 1 then 0 else k.val
        rw [if_pos rfl])]
    rw [broadcastInDim_apply ![0] h1 C (ix2 r (0 : Fin 1)) (ix1 r) (fun a => by
      match a with
      | ⟨0, _⟩ =>
        show r.val = if R = 1 then 0 else r.val
        split
        · have := r.isLt; omega
        · rfl)]
  simp only [LibDenseRows.hostDivf_apply, hcol]

/-! ## The two arrangements agree -/

/-- With the factors the reciprocals of the clipped counts and the bias row the bias vector, the kernel's arrangement of the
    layer is the host's. -/
theorem sageK_eq_sageH (A : (Sh2 R K).Idx → EReal) (S : (Sh2 R 1).Idx → EReal) (C : (Sh1 R).Idx → EReal)
    (X : (Sh2 R K).Idx → EReal) (Wl Wr : (Sh2 K N).Idx → EReal) (b2 : (Sh2 1 N).Idx → EReal) (b : (Sh1 N).Idx → EReal)
    (hC : ∀ r : Fin R, C (ix1 r) ≠ 0) (hS : ∀ r : Fin R, S (ix2 r (0 : Fin 1)) = Ideal.div 1 (C (ix1 r)))
    (hb : ∀ n : Fin N, b2 (ix2 (0 : Fin 1) n) = b (ix1 n)) :
    sageK A S X Wl b2 Wr = sageH A C X Wl b Wr := by
  funext i
  obtain ⟨r, n, rfl⟩ : ∃ (r : Fin R) (n : Fin N), i = ix2 r n := ⟨i 0, i 1, eq_ix2 i⟩
  rw [sageK_apply, sageH_apply, hS, ← rowK_eq_rowH _ _ (hC r)]
  simp only [hb]

/-! ## The two programs' spellings of one layer, joined -/

/-- The word of one broadcast from a scalar reads one everywhere. -/
theorem ones_apply (g : Sh0.BroadcastsInDim (Sh1 R) ![]) (r : Fin R) :
    broadcastInDim (Sh1 R) ![] g (constant (F := Ideal) Sh0 .f32 0x3F800000#32) (ix1 r) = oneW := by
  rw [broadcastInDim_apply ![] g _ (ix1 r) ix0 (fun a => a.elim0)]
  rfl

/-- The layer as the kernel's program hands it to its kernel — the factor column the reciprocals of the neighbour
    counts clipped below at one, reshaped to a column; the bias reshaped to a row — is the layer as the host program
    spells it, dividing by the clipped counts. -/
theorem layer_eq (A : FVec Ideal (Sh2 R K) .f32) (cnt : FVec Ideal (Sh1 R) .f32) (X : FVec Ideal (Sh2 R K) .f32)
    (Wl Wr : FVec Ideal (Sh2 K N) .f32) (b : FVec Ideal (Sh1 N) .f32)
    (g : Sh0.BroadcastsInDim (Sh1 R) ![]) (hsc : (Sh1 R).ShapeCasts (Sh2 R 1)) (hsb : (Sh1 N).ShapeCasts (Sh2 1 N))
    (h1 : (Sh1 R).BroadcastsInDim (Sh2 R 1) ![0]) (h2 : (Sh2 R 1).BroadcastsInDim (Sh2 R K) ![0, 1])
    (hb1 : (Sh1 N).BroadcastsInDim (Sh2 1 N) ![1]) (hb2 : (Sh2 1 N).BroadcastsInDim (Sh2 R N) ![0, 1]) :
    sageK A
        (shapeCast (Sh2 R 1)
          (Host.divf (broadcastInDim (Sh1 R) ![] g (constant (F := Ideal) Sh0 .f32 0x3F800000#32))
            (maximumf cnt (broadcastInDim (Sh1 R) ![] g (constant (F := Ideal) Sh0 .f32 0x3F800000#32)))) hsc)
        X Wl (shapeCast (Sh2 1 N) b hsb) Wr
    = addf (addf
        (Host.dotGeneral (DotDims.plain R K N) none
          (Host.divf A (broadcastInDim (Sh2 R K) ![0, 1] h2 (broadcastInDim (Sh2 R 1) ![0] h1
            (maximumf cnt (broadcastInDim (Sh1 R) ![] g (constant (F := Ideal) Sh0 .f32 0x3F800000#32)))))) Wl)
        (broadcastInDim (Sh2 R N) ![0, 1] hb2 (broadcastInDim (Sh2 1 N) ![1] hb1 b)))
      (Host.dotGeneral (DotDims.plain R K N) none X Wr) := by
  rw [host_layer_eq]
  refine sageK_eq_sageH _ _ _ _ _ _ _ _ (fun r => ?_) (fun r => ?_) (fun n => ?_)
  · rw [maximumf_apply, ones_apply]
    exact max_one_ne_zero _
  · rw [LibKeepdims.shapeCast_a_a1_apply, LibDenseRows.hostDivf_apply, maximumf_apply, ones_apply]
    show Ideal.div oneW _ = Ideal.div 1 _
    rw [show oneW = 1 from Ideal.ofBits_one_f32]
  · exact shapeCast_a_1a_apply b hsb (0 : Fin 1) n

/-- The rectifier spelled as a maximum with the zero word broadcast from a scalar. -/
theorem relu_host_eq (Z : FVec Ideal (Sh2 R N) .f32) (hb : Sh0.BroadcastsInDim (Sh2 R N) ![]) :
    maximumf Z (broadcastInDim (Sh2 R N) ![] hb (constant (F := Ideal) Sh0 .f32 0x00000000#32)) = reluArr Z := by
  funext i
  unfold reluArr
  rw [maximumf_apply, broadcastInDim_apply ![] hb _ i ix0 (fun a => a.elim0)]
  rfl

end Cert.LibSageRows
-- ==== Proof.Region0.lean ====
/-
  The first layer's region: a grid of 20 points, point t computing rows 2048 t … 2048 t + 2047 of the rectified layer
      out = max ((a * s) · Wl + x · Wr + b) 0
  from the same rows of the neighbour sums a, of the factor column s and of the nodes' own rows x, and from the
  whole weight matrices and the whole bias row. A row of the layer depends only on the same row of a, s and x, and
  the rectifier acts entry by entry, so what point t writes back is rows 2048 t … 2048 t + 2047 of the rectified
  layer on all 40960 rows; row r lies in the block of point r / 2048, so the blocks cover the array, which
  therefore ends holding the rectified layer on all rows.
-/
import proofs.«169818_j73787538145697_1_alg».proof.Proof.Gen.KernelIdeal.Frame
import proofs.«169818_j73787538145697_1_alg».proof.Proof.LibSageRows

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body reads and writes every staging buffer from its corner. -/
theorem hz0 : (![0, 0] : Fin 2 → Nat) = fun _ => 0 := funext fun a => by fin_cases a <;> rfl

/-- The body's term on a block is the rectified layer on that block: the maximum with a splat of the zero word, entry
    by entry, of the layer. -/
theorem pay0_eq (v0 : Vec Ideal S2048x512 .f32) (v2 : Vec Ideal S2048x1 .f32) (v8 : Vec Ideal S2048x512 .f32)
    (v11 v13 : Vec Ideal S512x256 .f32) (v18 : Vec Ideal S1x256 .f32) :
    k0_pay1 v0 v2 v8 v11 v13 v18
      = LibSageRows.reluArr (LibSageRows.sageK (R := 2048) (K := 512) (N := 256) v0 v2 v8 v11 v18 v13) := by
  have h : k0_pay1 v0 v2 v8 v11 v13 v18
      = maximumf (LibSageRows.sageK (R := 2048) (K := 512) (N := 256) v0 v2 v8 v11 v18 v13)
          (broadcast S2048x256 (Scalar.ofBits .f32 0x00000000#32)) :=
    congrArg (fun Z : FVec Ideal S2048x256 .f32 => maximumf Z (broadcast S2048x256 (Scalar.ofBits .f32 0x00000000#32)))
      (LibSageRows.kernel_block_eq v0 v2 v8 v11 v13 v18 _ _ _ _ _ _)
  rw [h]
  rfl

/-- The index maps over the grid: the row blocks move with the point, on their only column block; the weights and
    the bias row stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The rectified layer on all rows of the region's arrays. -/
abbrev G0 (c : Dev nD) : S40960x256.Idx → EReal :=
  LibSageRows.reluArr <| LibSageRows.sageK (R := 40960) (K := 512) (N := 256) (V c main_v9) (V c main_v18) (V c main_v19) (V c main_arg5) (V c main_v20) (V c main_arg7)

/-- Row p of point t's block of the neighbour sums is row 2048 t + p of the array. -/
theorem read0_0 (c : Dev nD) (t : Fin cfg0.N) (p : Fin 2048) (k : Fin 512) (h : t.val * 2048 + p.val < 40960) :
    (iblk0 V c 0 t : S2048x512.Idx → EReal) (ix2 p k)
      = (V c main_v9 : S40960x512.Idx → EReal) (ix2 (⟨t.val * 2048 + p.val, h⟩ : Fin 40960) k) := by
  obtain ⟨e0, e1, -⟩ := idx_facts0 t
  show (V c main_v9 : S40960x512.Idx → EReal) (((cfg0.win 0).blk t).view.emb (ix2 p k)) = _
  refine congrArg (V c main_v9 : S40960x512.Idx → EReal) ?_
  funext a; apply Fin.ext
  match a with
  | ⟨0, _⟩ => show win0_0.index t (0 : Fin 2) * 2048 + 1 * p.val = t.val * 2048 + p.val; omega
  | ⟨1, _⟩ => show win0_0.index t (1 : Fin 2) * 512 + 1 * k.val = k.val; omega

/-- Row p of point t's block of the factors is row 2048 t + p of the column. -/
theorem read0_1 (c : Dev nD) (t : Fin cfg0.N) (p : Fin 2048) (h : t.val * 2048 + p.val < 40960) :
    (iblk0 V c 1 t : S2048x1.Idx → EReal) (ix2 p (0 : Fin 1))
      = (V c main_v18 : S40960x1.Idx → EReal) (ix2 (⟨t.val * 2048 + p.val, h⟩ : Fin 40960) (0 : Fin 1)) := by
  obtain ⟨-, -, e0, e1, -⟩ := idx_facts0 t
  show (V c main_v18 : S40960x1.Idx → EReal) (((cfg0.win 1).blk t).view.emb (ix2 p (0 : Fin 1))) = _
  refine congrArg (V c main_v18 : S40960x1.Idx → EReal) ?_
  funext a; apply Fin.ext
  match a with
  | ⟨0, _⟩ => show win0_1.index t (0 : Fin 2) * 2048 + 1 * p.val = t.val * 2048 + p.val; omega
  | ⟨1, _⟩ => show win0_1.index t (1 : Fin 2) * 1 + 1 * 0 = 0; omega

/-- Row p of point t's block of the nodes' own rows is row 2048 t + p of the array. -/
theorem read0_2 (c : Dev nD) (t : Fin cfg0.N) (p : Fin 2048) (k : Fin 512) (h : t.val * 2048 + p.val < 40960) :
    (iblk0 V c 2 t : S2048x512.Idx → EReal) (ix2 p k)
      = (V c main_v19 : S40960x512.Idx → EReal) (ix2 (⟨t.val * 2048 + p.val, h⟩ : Fin 40960) k) := by
  obtain ⟨-, -, -, -, e0, e1, -⟩ := idx_facts0 t
  show (V c main_v19 : S40960x512.Idx → EReal) (((cfg0.win 2).blk t).view.emb (ix2 p k)) = _
  refine congrArg (V c main_v19 : S40960x512.Idx → EReal) ?_
  funext a; apply Fin.ext
  match a with
  | ⟨0, _⟩ => show win0_2.index t (0 : Fin 2) * 2048 + 1 * p.val = t.val * 2048 + p.val; omega
  | ⟨1, _⟩ => show win0_2.index t (1 : Fin 2) * 512 + 1 * k.val = k.val; omega

/-- The first weights' block is the whole matrix at every point. -/
theorem read0_3 (c : Dev nD) (t : Fin cfg0.N) :
    (iblk0 V c 3 t : S512x256.Idx → EReal) = (V c main_arg5 : S512x256.Idx → EReal) := by
  obtain ⟨-, -, -, -, -, -, e0, e1, -⟩ := idx_facts0 t
  funext j
  show (V c main_arg5 : S512x256.Idx → EReal) (((cfg0.win 3).blk t).view.emb j) = _
  refine congrArg (V c main_arg5 : S512x256.Idx → EReal) ?_
  funext a; apply Fin.ext
  match a with
  | ⟨0, _⟩ => show win0_3.index t (0 : Fin 2) * 512 + 1 * (j 0).val = (j 0).val; omega
  | ⟨1, _⟩ => show win0_3.index t (1 : Fin 2) * 256 + 1 * (j 1).val = (j 1).val; omega

/-- The bias row's block is the whole row at every point. -/
theorem read0_4 (c : Dev nD) (t : Fin cfg0.N) :
    (iblk0 V c 4 t : S1x256.Idx → EReal) = (V c main_v20 : S1x256.Idx → EReal) := by
  obtain ⟨-, -, -, -, -, -, -, -, e0, e1, -⟩ := idx_facts0 t
  funext j
  show (V c main_v20 : S1x256.Idx → EReal) (((cfg0.win 4).blk t).view.emb j) = _
  refine congrArg (V c main_v20 : S1x256.Idx → EReal) ?_
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

/-- The second weights' block is the whole matrix at every point. -/
theorem read0_5 (c : Dev nD) (t : Fin cfg0.N) :
    (iblk0 V c 5 t : S512x256.Idx → EReal) = (V c main_arg7 : S512x256.Idx → EReal) := by
  obtain ⟨-, -, -, -, -, -, -, -, -, -, e0, e1, -⟩ := idx_facts0 t
  funext j
  show (V c main_arg7 : S512x256.Idx → EReal) (((cfg0.win 5).blk t).view.emb j) = _
  refine congrArg (V c main_arg7 : S512x256.Idx → EReal) ?_
  funext a; apply Fin.ext
  match a with
  | ⟨0, _⟩ => show win0_5.index t (0 : Fin 2) * 512 + 1 * (j 0).val = (j 0).val; omega
  | ⟨1, _⟩ => show win0_5.index t (1 : Fin 2) * 256 + 1 * (j 1).val = (j 1).val; omega

/-- Entry (p, q) of point t's output block sits at (2048 t + p, q) of the array. -/
theorem emb0_6 (t : Fin cfg0.N) (p : Fin 2048) (q : Fin 256) (h : t.val * 2048 + p.val < 40960) :
    ((cfg0.win 6).blk t).view.emb (ix2 p q) = (ix2 (⟨t.val * 2048 + p.val, h⟩ : Fin 40960) q : S40960x256.Idx) := by
  obtain ⟨-, -, -, -, -, -, -, -, -, -, -, -, e0, e1⟩ := idx_facts0 t
  funext a; apply Fin.ext
  match a with
  | ⟨0, _⟩ => show win0_6.index t (0 : Fin 2) * 2048 + 1 * p.val = t.val * 2048 + p.val; omega
  | ⟨1, _⟩ => show win0_6.index t (1 : Fin 2) * 256 + 1 * q.val = q.val; omega

/-- What point t writes back is its block of the rectified layer on all rows. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S2048x512) hz0, View.ld_unit_zero (S := S2048x1) hz0, View.ld_unit_zero (S := S512x256) hz0, View.ld_unit_zero (S := S1x256) hz0]
  rw [pay0_eq, read0_3, read0_4, read0_5]
  funext j
  obtain ⟨p, q, rfl⟩ : ∃ (p : Fin 2048) (q : Fin 256), j = ix2 p q := ⟨j 0, j 1, eq_ix2 j⟩
  have ht : t.val < 20 := lt_of_lt_of_eq t.isLt N_0
  have h : t.val * 2048 + p.val < 40960 := by have := p.isLt; omega
  show LibSageRows.reluArr (LibSageRows.sageK (R := 2048) (K := 512) (N := 256) (iblk0 V c 0 t) (iblk0 V c 1 t) (iblk0 V c 2 t) (V c main_arg5) (V c main_v20) (V c main_arg7)) (ix2 p q)
    = G0 V c (((cfg0.win 6).blk t).view.emb (ix2 p q))
  rw [emb0_6 t p q h]
  exact congrArg (fun z : EReal => max z LibDenseRows.zeroW)
    (LibSageRows.sageK_congr_row _ _ _ _ _ _ _ _ _ p ⟨t.val * 2048 + p.val, h⟩
      (fun k => read0_0 V c t p k h) (read0_1 V c t p h) (fun k => read0_2 V c t p k h) q)

/-- An index of the array is in point t's block iff each coordinate is in the block's range on its axis. -/
theorem mem_blk0 (t : Fin cfg0.N) (i : S40960x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v21).slice (win0_6.rect t)).set ↔ _
  rw [View.set_slice_whole, Rect.mem_set_unit]
  exact Iff.rfl

/-- Every row lies in the block of the point numbered by its quotient by the block height. -/
theorem cover0 (i : S40960x256.Idx) :
    ∃ t : Fin cfg0.N, (cfg0.win 6).flush t = true ∧ i ∈ ((cfg0.win 6).blk t).view.set := by
  have hi0 : (i 0).val < 40960 := (i 0).isLt
  have hi1 : (i 1).val < 256 := (i 1).isLt
  have hN : (i 0).val / 2048 < cfg0.N := lt_of_lt_of_eq (by omega : (i 0).val / 2048 < 20) N_0.symm
  refine ⟨⟨(i 0).val / 2048, hN⟩, flush0_6 _, ?_⟩
  rw [mem_blk0]
  obtain ⟨-, -, -, -, -, -, -, -, -, -, -, -, e0, e1⟩ := idx_facts0 ⟨(i 0).val / 2048, hN⟩
  intro a
  match a with
  | ⟨0, _⟩ =>
    show win0_6.index ⟨(i 0).val / 2048, hN⟩ (0 : Fin 2) * 2048 ≤ (i 0).val ∧ (i 0).val < win0_6.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_6.index ⟨(i 0).val / 2048, hN⟩ (1 : Fin 2) * 256 ≤ (i 1).val ∧ (i 1).val < win0_6.index ⟨(i 0).val / 2048, hN⟩ (1 : Fin 2) * 256 + 256
    rw [e1]; omega

/-- The region's output array ends holding the rectified layer on all 40960 rows. -/
theorem region0_final (c : Dev nD) :
    (dat0 (F := Ideal) V c).arrAt 6 cfg0.N
      = LibSageRows.reluArr (LibSageRows.sageK (R := 40960) (K := 512) (N := 256) (V c main_v9) (V c main_v18) (V c main_v19) (V c main_arg5) (V c main_v20) (V c main_arg7)) :=
  (dat0 (F := Ideal) V c).arrAt_eq_of_cover 6 (G0 V c) (fun t _ => flushed0_eq V c t) cover0

end Cert.KernelIdeal.RegionValue

end
-- ==== Proof.Region1.lean ====
/-
  The second layer's region: a grid of 4 points, point t computing rows 1024 t … 1024 t + 1023 of the layer
      out = (a * s) · Wl + x · Wr + b
  from the same rows of the neighbour sums a, of the factor column s and of the nodes' own rows x, and from the
  whole weight matrices and the whole bias row. A row of the layer depends only on the same row of a, s and x, so
  what point t writes back is rows 1024 t … 1024 t + 1023 of the layer on all 4096 rows; row r lies in the block of
  point r / 1024, so the blocks cover the array, which therefore ends holding the layer on all rows.
-/
import proofs.«169818_j73787538145697_1_alg».proof.Proof.Gen.KernelIdeal.Frame
import proofs.«169818_j73787538145697_1_alg».proof.Proof.LibSageRows

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body reads and writes every staging buffer from its corner. -/
theorem hz1 : (![0, 0] : Fin 2 → Nat) = fun _ => 0 := funext fun a => by fin_cases a <;> rfl

/-- The body's term on a block is the layer on that block. -/
theorem pay1_eq (v0 : Vec Ideal S1024x256 .f32) (v2 : Vec Ideal S1024x1 .f32) (v8 : Vec Ideal S1024x256 .f32)
    (v11 v13 : Vec Ideal S256x128 .f32) (v18 : Vec Ideal S1x128 .f32) :
    k1_pay1 v0 v2 v8 v11 v13 v18 = LibSageRows.sageK (R := 1024) (K := 256) (N := 128) v0 v2 v8 v11 v18 v13 :=
  LibSageRows.kernel_block_eq v0 v2 v8 v11 v13 v18 _ _ _ _ _ _

/-- The index maps over the grid: the row blocks move with the point, on their only column block; the weights and
    the bias row stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer on all rows of the region's arrays. -/
abbrev G1 (c : Dev nD) : S4096x128.Idx → EReal :=
  LibSageRows.sageK (R := 4096) (K := 256) (N := 128) (V c main_v31) (V c main_v40) (V c main_v41) (V c main_arg8) (V c main_v42) (V c main_arg10)

/-- Row p of point t's block of the neighbour sums is row 1024 t + p of the array. -/
theorem read1_0 (c : Dev nD) (t : Fin cfg1.N) (p : Fin 1024) (k : Fin 256) (h : t.val * 1024 + p.val < 4096) :
    (iblk1 V c 0 t : S1024x256.Idx → EReal) (ix2 p k)
      = (V c main_v31 : S4096x256.Idx → EReal) (ix2 (⟨t.val * 1024 + p.val, h⟩ : Fin 4096) k) := by
  obtain ⟨e0, e1, -⟩ := idx_facts1 t
  show (V c main_v31 : S4096x256.Idx → EReal) (((cfg1.win 0).blk t).view.emb (ix2 p k)) = _
  refine congrArg (V c main_v31 : S4096x256.Idx → EReal) ?_
  funext a; apply Fin.ext
  match a with
  | ⟨0, _⟩ => show win1_0.index t (0 : Fin 2) * 1024 + 1 * p.val = t.val * 1024 + p.val; omega
  | ⟨1, _⟩ => show win1_0.index t (1 : Fin 2) * 256 + 1 * k.val = k.val; omega

/-- Row p of point t's block of the factors is row 1024 t + p of the column. -/
theorem read1_1 (c : Dev nD) (t : Fin cfg1.N) (p : Fin 1024) (h : t.val * 1024 + p.val < 4096) :
    (iblk1 V c 1 t : S1024x1.Idx → EReal) (ix2 p (0 : Fin 1))
      = (V c main_v40 : S4096x1.Idx → EReal) (ix2 (⟨t.val * 1024 + p.val, h⟩ : Fin 4096) (0 : Fin 1)) := by
  obtain ⟨-, -, e0, e1, -⟩ := idx_facts1 t
  show (V c main_v40 : S4096x1.Idx → EReal) (((cfg1.win 1).blk t).view.emb (ix2 p (0 : Fin 1))) = _
  refine congrArg (V c main_v40 : S4096x1.Idx → EReal) ?_
  funext a; apply Fin.ext
  match a with
  | ⟨0, _⟩ => show win1_1.index t (0 : Fin 2) * 1024 + 1 * p.val = t.val * 1024 + p.val; omega
  | ⟨1, _⟩ => show win1_1.index t (1 : Fin 2) * 1 + 1 * 0 = 0; omega

/-- Row p of point t's block of the nodes' own rows is row 1024 t + p of the array. -/
theorem read1_2 (c : Dev nD) (t : Fin cfg1.N) (p : Fin 1024) (k : Fin 256) (h : t.val * 1024 + p.val < 4096) :
    (iblk1 V c 2 t : S1024x256.Idx → EReal) (ix2 p k)
      = (V c main_v41 : S4096x256.Idx → EReal) (ix2 (⟨t.val * 1024 + p.val, h⟩ : Fin 4096) k) := by
  obtain ⟨-, -, -, -, e0, e1, -⟩ := idx_facts1 t
  show (V c main_v41 : S4096x256.Idx → EReal) (((cfg1.win 2).blk t).view.emb (ix2 p k)) = _
  refine congrArg (V c main_v41 : S4096x256.Idx → EReal) ?_
  funext a; apply Fin.ext
  match a with
  | ⟨0, _⟩ => show win1_2.index t (0 : Fin 2) * 1024 + 1 * p.val = t.val * 1024 + p.val; omega
  | ⟨1, _⟩ => show win1_2.index t (1 : Fin 2) * 256 + 1 * k.val = k.val; omega

/-- The first weights' block is the whole matrix at every point. -/
theorem read1_3 (c : Dev nD) (t : Fin cfg1.N) :
    (iblk1 V c 3 t : S256x128.Idx → EReal) = (V c main_arg8 : S256x128.Idx → EReal) := by
  obtain ⟨-, -, -, -, -, -, e0, e1, -⟩ := idx_facts1 t
  funext j
  show (V c main_arg8 : S256x128.Idx → EReal) (((cfg1.win 3).blk t).view.emb j) = _
  refine congrArg (V c main_arg8 : S256x128.Idx → EReal) ?_
  funext a; apply Fin.ext
  match a with
  | ⟨0, _⟩ => show win1_3.index t (0 : Fin 2) * 256 + 1 * (j 0).val = (j 0).val; omega
  | ⟨1, _⟩ => show win1_3.index t (1 : Fin 2) * 128 + 1 * (j 1).val = (j 1).val; omega

/-- The bias row's block is the whole row at every point. -/
theorem read1_4 (c : Dev nD) (t : Fin cfg1.N) :
    (iblk1 V c 4 t : S1x128.Idx → EReal) = (V c main_v42 : S1x128.Idx → EReal) := by
  obtain ⟨-, -, -, -, -, -, -, -, e0, e1, -⟩ := idx_facts1 t
  funext j
  show (V c main_v42 : S1x128.Idx → EReal) (((cfg1.win 4).blk t).view.emb j) = _
  refine congrArg (V c main_v42 : S1x128.Idx → EReal) ?_
  funext a; apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- The second weights' block is the whole matrix at every point. -/
theorem read1_5 (c : Dev nD) (t : Fin cfg1.N) :
    (iblk1 V c 5 t : S256x128.Idx → EReal) = (V c main_arg10 : S256x128.Idx → EReal) := by
  obtain ⟨-, -, -, -, -, -, -, -, -, -, e0, e1, -⟩ := idx_facts1 t
  funext j
  show (V c main_arg10 : S256x128.Idx → EReal) (((cfg1.win 5).blk t).view.emb j) = _
  refine congrArg (V c main_arg10 : S256x128.Idx → EReal) ?_
  funext a; apply Fin.ext
  match a with
  | ⟨0, _⟩ => show win1_5.index t (0 : Fin 2) * 256 + 1 * (j 0).val = (j 0).val; omega
  | ⟨1, _⟩ => show win1_5.index t (1 : Fin 2) * 128 + 1 * (j 1).val = (j 1).val; omega

/-- Entry (p, q) of point t's output block sits at (1024 t + p, q) of the array. -/
theorem emb1_6 (t : Fin cfg1.N) (p : Fin 1024) (q : Fin 128) (h : t.val * 1024 + p.val < 4096) :
    ((cfg1.win 6).blk t).view.emb (ix2 p q) = (ix2 (⟨t.val * 1024 + p.val, h⟩ : Fin 4096) q : S4096x128.Idx) := by
  obtain ⟨-, -, -, -, -, -, -, -, -, -, -, -, e0, e1⟩ := idx_facts1 t
  funext a; apply Fin.ext
  match a with
  | ⟨0, _⟩ => show win1_6.index t (0 : Fin 2) * 1024 + 1 * p.val = t.val * 1024 + p.val; omega
  | ⟨1, _⟩ => show win1_6.index t (1 : Fin 2) * 128 + 1 * q.val = q.val; omega

/-- What point t writes back is its block of the layer on all rows. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S1024x256) hz1, View.ld_unit_zero (S := S1024x1) hz1, View.ld_unit_zero (S := S256x128) hz1, View.ld_unit_zero (S := S1x128) hz1]
  rw [pay1_eq, read1_3, read1_4, read1_5]
  funext j
  obtain ⟨p, q, rfl⟩ : ∃ (p : Fin 1024) (q : Fin 128), j = ix2 p q := ⟨j 0, j 1, eq_ix2 j⟩
  have ht : t.val < 4 := lt_of_lt_of_eq t.isLt N_1
  have h : t.val * 1024 + p.val < 4096 := by have := p.isLt; omega
  show LibSageRows.sageK (R := 1024) (K := 256) (N := 128) (iblk1 V c 0 t) (iblk1 V c 1 t) (iblk1 V c 2 t) (V c main_arg8) (V c main_v42) (V c main_arg10) (ix2 p q)
    = G1 V c (((cfg1.win 6).blk t).view.emb (ix2 p q))
  rw [emb1_6 t p q h]
  exact LibSageRows.sageK_congr_row _ _ _ _ _ _ _ _ _ p ⟨t.val * 1024 + p.val, h⟩
    (fun k => read1_0 V c t p k h) (read1_1 V c t p h) (fun k => read1_2 V c t p k h) q

/-- An index of the array is in point t's block iff each coordinate is in the block's range on its axis. -/
theorem mem_blk1 (t : Fin cfg1.N) (i : S4096x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v43).slice (win1_6.rect t)).set ↔ _
  rw [View.set_slice_whole, Rect.mem_set_unit]
  exact Iff.rfl

/-- Every row lies in the block of the point numbered by its quotient by the block height. -/
theorem cover1 (i : S4096x128.Idx) :
    ∃ t : Fin cfg1.N, (cfg1.win 6).flush t = true ∧ i ∈ ((cfg1.win 6).blk t).view.set := by
  have hi0 : (i 0).val < 4096 := (i 0).isLt
  have hi1 : (i 1).val < 128 := (i 1).isLt
  have hN : (i 0).val / 1024 < cfg1.N := lt_of_lt_of_eq (by omega : (i 0).val / 1024 < 4) N_1.symm
  refine ⟨⟨(i 0).val / 1024, hN⟩, flush1_6 _, ?_⟩
  rw [mem_blk1]
  obtain ⟨-, -, -, -, -, -, -, -, -, -, -, -, e0, e1⟩ := idx_facts1 ⟨(i 0).val / 1024, hN⟩
  intro a
  match a with
  | ⟨0, _⟩ =>
    show win1_6.index ⟨(i 0).val / 1024, hN⟩ (0 : Fin 2) * 1024 ≤ (i 0).val ∧ (i 0).val < win1_6.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win1_6.index ⟨(i 0).val / 1024, hN⟩ (1 : Fin 2) * 128 ≤ (i 1).val ∧ (i 1).val < win1_6.index ⟨(i 0).val / 1024, hN⟩ (1 : Fin 2) * 128 + 128
    rw [e1]; omega

/-- The region's output array ends holding the layer on all 4096 rows. -/
theorem region1_final (c : Dev nD) :
    (dat1 (F := Ideal) V c).arrAt 6 cfg1.N
      = LibSageRows.sageK (R := 4096) (K := 256) (N := 128) (V c main_v31) (V c main_v40) (V c main_v41) (V c main_arg8) (V c main_v42) (V c main_arg10) :=
  (dat1 (F := Ideal) V c).arrAt_eq_of_cover 6 (G1 V c) (fun t _ => flushed1_eq V c t) cover1

end Cert.KernelIdeal.RegionValue

end
-- ==== Proof.Spec.lean ====
/-
  The two programs' results as functions of the eleven arguments, and their equality.
  Both programs compute two mean-aggregating graph layers. A layer gathers the source rows of its edges, sums them
  into their target nodes, counts each target's edges, and combines the mean of the neighbours with the node's own
  row: (sum / max(count, 1)) · Wl + b + own · Wr; the first layer is followed by the rectifier, and its output is
  the second layer's feature array. The gathers, the scatter sums and the counts are the same host operations in both
  programs and are carried here as named functions that are never opened. The programs differ only inside a layer:
  the kernel's program hands its kernel the reciprocal 1 / max(count, 1) as a column and the kernel multiplies, adds
  the two products first and the bias last; the reference divides and adds the bias between the two products. On the
  extended reals these agree entry by entry (LibSageRows.layer_eq), so the first layers' outputs are one array, and
  then so are the second layers'.
-/
import proofs.«169818_j73787538145697_1_alg».proof.KernelIdeal
import proofs.«169818_j73787538145697_1_alg».proof.ReferenceIdeal
import proofs.«169818_j73787538145697_1_alg».proof.Proof.LibSageRows

noncomputable section

namespace Cert.Spec

open Idealize.ShloMosaic Idealize.ShloMosaic.ValueIdx
open Cert.LibSageRows
open Cert.KernelIdeal Cert.KernelIdeal.Facts₀

variable [hK : Cert.KernelIdeal.Facts] [hR : Cert.ReferenceIdeal.Facts]

/-! ## The shared host stretches, first layer (409600 edges into 40960 targets, 512 features) -/

/-- Edge sources as a column of start indices, a negative index wrapped once by the number of source rows. -/
def srcCol1 (src : IVec S409600 32) : IVec S409600x1 32 :=
  broadcastInDim S409600x1 ![0] bcast_S409600_S409600x1_0
    (select (cmpi .slt src (broadcastInDim S409600 ![] bcast_S_S409600 (constantI S_ 32 0#32)))
      (addi src (broadcastInDim S409600 ![] bcast_S_S409600 (constantI S_ 32 409600#32))) src)

/-- The neighbour sums: the gathered source rows added into their target rows. -/
def agg1 (x : FVec Ideal S409600x512 .f32) (src dst : IVec S409600 32) :
    FVec Ideal S40960x512 .f32 :=
  Host.scatterAdd (F := Ideal) scatter_S40960x512_S409600x1_S409600x512_1_0_0_1
    (broadcastInDim S40960x512 ![] bcast_S_S40960x512 (constant (F := Ideal) S_ .f32 0x00000000#32))
    (broadcastInDim S409600x1 ![0] bcast_S409600_S409600x1_0 dst)
    (Host.gather gather_S409600x512_S409600x1_S409600x512_1_0_n_n_0_1_1512 x (srcCol1 src))

/-- The neighbour counts: a one added into its target for every edge. -/
def cnt1 (dst : IVec S409600 32) : FVec Ideal S40960 .f32 :=
  Host.scatterAdd (F := Ideal) scatter_S40960_S409600x1_S409600_n_0_0_1
    (broadcastInDim S40960 ![] bcast_S_S40960 (constant (F := Ideal) S_ .f32 0x00000000#32))
    (broadcastInDim S409600x1 ![0] bcast_S409600_S409600x1_0 dst)
    (broadcastInDim S409600 ![] bcast_S_S409600 (constant (F := Ideal) S_ .f32 0x3F800000#32))

/-- The targets' own rows: the first 40960 rows of the features. -/
def own1 (x : FVec Ideal S409600x512 .f32) : FVec Ideal S40960x512 .f32 :=
  extractStridedSlice S40960x512 ![0, 0] x slices_S409600x512_S40960x512_0_0

/-! ## The shared host stretches, second layer (40960 edges into 4096 targets, 256 features) -/

def srcCol2 (src : IVec S40960 32) : IVec S40960x1 32 :=
  broadcastInDim S40960x1 ![0] bcast_S40960_S40960x1_0
    (select (cmpi .slt src (broadcastInDim S40960 ![] bcast_S_S40960 (constantI S_ 32 0#32)))
      (addi src (broadcastInDim S40960 ![] bcast_S_S40960 (constantI S_ 32 40960#32))) src)

def agg2 (h : FVec Ideal S40960x256 .f32) (src dst : IVec S40960 32) :
    FVec Ideal S4096x256 .f32 :=
  Host.scatterAdd (F := Ideal) scatter_S4096x256_S40960x1_S40960x256_1_0_0_1
    (broadcastInDim S4096x256 ![] bcast_S_S4096x256 (constant (F := Ideal) S_ .f32 0x00000000#32))
    (broadcastInDim S40960x1 ![0] bcast_S40960_S40960x1_0 dst)
    (Host.gather gather_S40960x256_S40960x1_S40960x256_1_0_n_n_0_1_1256 h (srcCol2 src))

def cnt2 (dst : IVec S40960 32) : FVec Ideal S4096 .f32 :=
  Host.scatterAdd (F := Ideal) scatter_S4096_S40960x1_S40960_n_0_0_1
    (broadcastInDim S4096 ![] bcast_S_S4096 (constant (F := Ideal) S_ .f32 0x00000000#32))
    (broadcastInDim S40960x1 ![0] bcast_S40960_S40960x1_0 dst)
    (broadcastInDim S40960 ![] bcast_S_S40960 (constant (F := Ideal) S_ .f32 0x3F800000#32))

def own2 (h : FVec Ideal S40960x256 .f32) : FVec Ideal S4096x256 .f32 :=
  extractStridedSlice S4096x256 ![0, 0] h slices_S40960x256_S4096x256_0_0

/-! ## The kernel program's two layers -/

/-- The column of factors the first kernel receives: one over the count clipped below at one, reshaped to a column. -/
def inv1 (dst : IVec S409600 32) : FVec Ideal S40960x1 .f32 :=
  shapeCast S40960x1
    (Host.divf (F := Ideal) (broadcastInDim S40960 ![] bcast_S_S40960 (constant (F := Ideal) S_ .f32 0x3F800000#32))
      (maximumf (cnt1 dst) (broadcastInDim S40960 ![] bcast_S_S40960 (constant (F := Ideal) S_ .f32 0x3F800000#32))))
    shapeCasts_S40960_S40960x1

def inv2 (dst : IVec S40960 32) : FVec Ideal S4096x1 .f32 :=
  shapeCast S4096x1
    (Host.divf (F := Ideal) (broadcastInDim S4096 ![] bcast_S_S4096 (constant (F := Ideal) S_ .f32 0x3F800000#32))
      (maximumf (cnt2 dst) (broadcastInDim S4096 ![] bcast_S_S4096 (constant (F := Ideal) S_ .f32 0x3F800000#32))))
    shapeCasts_S4096_S4096x1

/-- The first layer's output in the kernel's program: the rectified layer. -/
def hidK (x : FVec Ideal S409600x512 .f32) (src dst : IVec S409600 32)
    (Wl : FVec Ideal S512x256 .f32) (b : FVec Ideal S256 .f32)
    (Wr : FVec Ideal S512x256 .f32) : FVec Ideal S40960x256 .f32 :=
  reluArr (sageK (R := 40960) (K := 512) (N := 256) (agg1 x src dst) (inv1 dst) (own1 x) Wl (shapeCast S1x256 b shapeCasts_S256_S1x256) Wr)

/-- The kernel program's result. -/
def kernelFn (x : FVec Ideal S409600x512 .f32) (src1 dst1 : IVec S409600 32)
    (src2 dst2 : IVec S40960 32)
    (W1l : FVec Ideal S512x256 .f32) (b1 : FVec Ideal S256 .f32)
    (W1r : FVec Ideal S512x256 .f32)
    (W2l : FVec Ideal S256x128 .f32) (b2 : FVec Ideal S128 .f32)
    (W2r : FVec Ideal S256x128 .f32) : FVec Ideal S4096x128 .f32 :=
  sageK (R := 4096) (K := 256) (N := 128) (agg2 (hidK x src1 dst1 W1l b1 W1r) src2 dst2) (inv2 dst2) (own2 (hidK x src1 dst1 W1l b1 W1r)) W2l
    (shapeCast S1x128 b2 shapeCasts_S128_S1x128) W2r

/-! ## The reference's two layers -/

/-- The first layer's output in the reference: the layer with the division spelled out, then the rectifier. -/
def hidR (x : FVec Ideal S409600x512 .f32) (src dst : IVec S409600 32)
    (Wl : FVec Ideal S512x256 .f32) (b : FVec Ideal S256 .f32)
    (Wr : FVec Ideal S512x256 .f32) : FVec Ideal S40960x256 .f32 :=
  maximumf
    (addf (addf
      (Host.dotGeneral (F := Ideal) Cert.ReferenceIdeal.dot_S40960x512_S512x256_S40960x256_1_0_0_1_n_n none
        (Host.divf (F := Ideal) (agg1 x src dst)
          (broadcastInDim S40960x512 ![0, 1] Cert.ReferenceIdeal.Facts₀.bcast_S40960x1_S40960x512_0_1
            (broadcastInDim S40960x1 ![0] Cert.ReferenceIdeal.Facts₀.bcast_S40960_S40960x1_0
              (maximumf (cnt1 dst) (broadcastInDim S40960 ![] bcast_S_S40960 (constant (F := Ideal) S_ .f32 0x3F800000#32))))))
        Wl)
      (broadcastInDim S40960x256 ![0, 1] Cert.ReferenceIdeal.Facts₀.bcast_S1x256_S40960x256_0_1
        (broadcastInDim S1x256 ![1] Cert.ReferenceIdeal.Facts₀.bcast_S256_S1x256_1 b)))
      (Host.dotGeneral (F := Ideal) Cert.ReferenceIdeal.dot_S40960x512_S512x256_S40960x256_1_0_0_1_n_n none (own1 x) Wr))
    (broadcastInDim S40960x256 ![] Cert.ReferenceIdeal.Facts₀.bcast_S_S40960x256 (constant (F := Ideal) S_ .f32 0x00000000#32))

/-- The reference's result. -/
def refFn (x : FVec Ideal S409600x512 .f32) (src1 dst1 : IVec S409600 32)
    (src2 dst2 : IVec S40960 32)
    (W1l : FVec Ideal S512x256 .f32) (b1 : FVec Ideal S256 .f32)
    (W1r : FVec Ideal S512x256 .f32)
    (W2l : FVec Ideal S256x128 .f32) (b2 : FVec Ideal S128 .f32)
    (W2r : FVec Ideal S256x128 .f32) : FVec Ideal S4096x128 .f32 :=
  addf (addf
    (Host.dotGeneral (F := Ideal) Cert.ReferenceIdeal.dot_S4096x256_S256x128_S4096x128_1_0_0_1_n_n none
      (Host.divf (F := Ideal) (agg2 (hidR x src1 dst1 W1l b1 W1r) src2 dst2)
        (broadcastInDim S4096x256 ![0, 1] Cert.ReferenceIdeal.Facts₀.bcast_S4096x1_S4096x256_0_1
          (broadcastInDim S4096x1 ![0] Cert.ReferenceIdeal.Facts₀.bcast_S4096_S4096x1_0
            (maximumf (cnt2 dst2) (broadcastInDim S4096 ![] bcast_S_S4096 (constant (F := Ideal) S_ .f32 0x3F800000#32))))))
      W2l)
    (broadcastInDim S4096x128 ![0, 1] Cert.ReferenceIdeal.Facts₀.bcast_S1x128_S4096x128_0_1
      (broadcastInDim S1x128 ![1] Cert.ReferenceIdeal.Facts₀.bcast_S128_S1x128_1 b2)))
    (Host.dotGeneral (F := Ideal) Cert.ReferenceIdeal.dot_S4096x256_S256x128_S4096x128_1_0_0_1_n_n none (own2 (hidR x src1 dst1 W1l b1 W1r)) W2r)

/-! ## The two are one function -/

/-- The first layers' outputs agree. -/
theorem hidK_eq_hidR (x : FVec Ideal S409600x512 .f32) (src dst : IVec S409600 32)
    (Wl : FVec Ideal S512x256 .f32) (b : FVec Ideal S256 .f32)
    (Wr : FVec Ideal S512x256 .f32) : hidK x src dst Wl b Wr = hidR x src dst Wl b Wr := by
  unfold hidK hidR inv1
  refine Eq.trans (congrArg reluArr ?_) (relu_host_eq (R := 40960) (N := 256) _ _).symm
  exact layer_eq (R := 40960) (K := 512) (N := 256) (agg1 x src dst) (cnt1 dst) (own1 x) Wl Wr b _ _ _ _ _ _ _

/-- The results agree. -/
theorem kernelFn_eq_refFn (x : FVec Ideal S409600x512 .f32) (src1 dst1 : IVec S409600 32)
    (src2 dst2 : IVec S40960 32)
    (W1l : FVec Ideal S512x256 .f32) (b1 : FVec Ideal S256 .f32)
    (W1r : FVec Ideal S512x256 .f32)
    (W2l : FVec Ideal S256x128 .f32) (b2 : FVec Ideal S128 .f32)
    (W2r : FVec Ideal S256x128 .f32) :
    kernelFn x src1 dst1 src2 dst2 W1l b1 W1r W2l b2 W2r = refFn x src1 dst1 src2 dst2 W1l b1 W1r W2l b2 W2r := by
  unfold kernelFn refFn inv2
  rw [hidK_eq_hidR]
  exact layer_eq (R := 4096) (K := 256) (N := 128) (agg2 (hidR x src1 dst1 W1l b1 W1r) src2 dst2) (cnt2 dst2) (own2 (hidR x src1 dst1 W1l b1 W1r)) W2l W2r b2 _ _ _ _ _ _ _

end Cert.Spec

end
-- ==== Proof.KernelValue.lean ====
/-
  The kernel program's result buffer, read back through the program: the last region's output array is the second
  layer of its six input arrays; those are host operations of the first region's output and of the arguments; the
  first region's output is the rectified first layer of ITS six input arrays, which are host operations of the
  arguments. Composed, the result is the function Spec.kernelFn of the eleven arguments.
-/
import proofs.«169818_j73787538145697_1_alg».proof.Proof.Gen.KernelIdeal.Frame
import proofs.«169818_j73787538145697_1_alg».proof.Proof.Region0
import proofs.«169818_j73787538145697_1_alg».proof.Proof.Region1
import proofs.«169818_j73787538145697_1_alg».proof.Proof.Spec
import Idealize.ShloMosaic.Lib.StableHlo.Run

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem Idealize.ShloMosaic.StableHlo
open Cert.LibSageRows

/-! ## The regions' outputs, with each input array named -/

section Named
variable (V : (c : Dev nD) → (b : Ref sig .tc) → Buf (Elt Ideal) ((c : Thread nD τ).loc b))

/-- The first region's output from its six input arrays, each given by name. -/
theorem region0_named (c : Dev nD) (A : FVec Ideal S40960x512 .f32) (S : FVec Ideal S40960x1 .f32) (X : FVec Ideal S40960x512 .f32)
    (Wl : FVec Ideal S512x256 .f32) (b : FVec Ideal S1x256 .f32) (Wr : FVec Ideal S512x256 .f32)
    (hA : V c main_v9 = A) (hS : V c main_v18 = S) (hX : V c main_v19 = X) (hWl : V c main_arg5 = Wl)
    (hb : V c main_v20 = b) (hWr : V c main_arg7 = Wr) :
    (dat0 (F := Ideal) V c).arrAt 6 cfg0.N = reluArr (sageK (R := 40960) (K := 512) (N := 256) A S X Wl b Wr) := by
  subst hA hS hX hWl hb hWr
  exact region0_final V c

/-- The second region's output from its six input arrays, each given by name. -/
theorem region1_named (c : Dev nD) (A : FVec Ideal S4096x256 .f32) (S : FVec Ideal S4096x1 .f32) (X : FVec Ideal S4096x256 .f32)
    (Wl : FVec Ideal S256x128 .f32) (b : FVec Ideal S1x128 .f32) (Wr : FVec Ideal S256x128 .f32)
    (hA : V c main_v31 = A) (hS : V c main_v40 = S) (hX : V c main_v41 = X) (hWl : V c main_arg8 = Wl)
    (hb : V c main_v42 = b) (hWr : V c main_arg10 = Wr) :
    (dat1 (F := Ideal) V c).arrAt 6 cfg1.N = sageK (R := 4096) (K := 256) (N := 128) A S X Wl b Wr := by
  subst hA hS hX hWl hb hWr
  exact region1_final V c

end Named

variable (m : (ℓ : Loc nD τ sig) → Buf (Elt Ideal) ℓ) (ρ : Dev nD → PrngReg)

/-! ## The arguments the second stretch of host operations reads are still as launched after the first region -/

theorem W2_arg3 (c : Dev nD) : W2 (F := Ideal) m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 (F := Ideal) m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg8 (c : Dev nD) : W2 (F := Ideal) m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 (F := Ideal) m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 (F := Ideal) m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-! ## The first region's input arrays, and its output -/

theorem V1_v9 (c : Dev nD) : V1 (F := Ideal) m ρ c main_v9 = Cert.Spec.agg1 (m ((c : Thread nD τ).loc main_arg0)) (m ((c : Thread nD τ).loc main_arg1)) (m ((c : Thread nD τ).loc main_arg2)) := by
  show StableHlo.after hostOps0 (W0 m ρ c) (Proc.devRef .tc main_v9) = _
  after_results
  unfold Cert.Spec.agg1 Cert.Spec.srcCol1
  rfl

theorem V1_v18 (c : Dev nD) : V1 (F := Ideal) m ρ c main_v18 = Cert.Spec.inv1 (m ((c : Thread nD τ).loc main_arg2)) := by
  show StableHlo.after hostOps0 (W0 m ρ c) (Proc.devRef .tc main_v18) = _
  after_results
  unfold Cert.Spec.inv1 Cert.Spec.cnt1
  rfl

theorem V1_v19 (c : Dev nD) : V1 (F := Ideal) m ρ c main_v19 = Cert.Spec.own1 (m ((c : Thread nD τ).loc main_arg0)) := by
  show StableHlo.after hostOps0 (W0 m ρ c) (Proc.devRef .tc main_v19) = _
  after_results
  unfold Cert.Spec.own1
  rfl

theorem V1_arg5 (c : Dev nD) : V1 (F := Ideal) m ρ c main_arg5 = (m ((c : Thread nD τ).loc main_arg5)) := by
  show StableHlo.after hostOps0 (W0 m ρ c) (Proc.devRef .tc main_arg5) = _
  after_results

theorem V1_v20 (c : Dev nD) : V1 (F := Ideal) m ρ c main_v20 = shapeCast S1x256 (m ((c : Thread nD τ).loc main_arg6)) Facts₀.shapeCasts_S256_S1x256 := by
  show StableHlo.after hostOps0 (W0 m ρ c) (Proc.devRef .tc main_v20) = _
  after_results
  rfl

theorem V1_arg7 (c : Dev nD) : V1 (F := Ideal) m ρ c main_arg7 = (m ((c : Thread nD τ).loc main_arg7)) := by
  show StableHlo.after hostOps0 (W0 m ρ c) (Proc.devRef .tc main_arg7) = _
  after_results

/-- After the first region its output array is the rectified first layer of the arguments. -/
theorem W2_hidden (c : Dev nD) :
    W2 (F := Ideal) m ρ c (Proc.devRef .tc main_v21)
      = Cert.Spec.hidK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W2_arr m ρ c 6).trans
    (region0_named (V1 m ρ) c _ _ _ _ _ _ (V1_v9 m ρ c) (V1_v18 m ρ c) (V1_v19 m ρ c) (V1_arg5 m ρ c) (V1_v20 m ρ c) (V1_arg7 m ρ c))

/-! ## The second region's input arrays, and the result -/

theorem V3_v31 (c : Dev nD) : V3 (F := Ideal) m ρ c main_v31
    = Cert.Spec.agg2 (Cert.Spec.hidK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg3)) (m ((c : Thread nD τ).loc main_arg4)) := by
  show StableHlo.after hostOps1 (W2 m ρ c) (Proc.devRef .tc main_v31) = _
  rw [← W2_hidden m ρ c, ← W2_arg3 m ρ c, ← W2_arg4 m ρ c]
  generalize W2 (F := Ideal) m ρ c = Wv
  after_results
  unfold Cert.Spec.agg2 Cert.Spec.srcCol2
  rfl

theorem V3_v40 (c : Dev nD) : V3 (F := Ideal) m ρ c main_v40 = Cert.Spec.inv2 (m ((c : Thread nD τ).loc main_arg4)) := by
  show StableHlo.after hostOps1 (W2 m ρ c) (Proc.devRef .tc main_v40) = _
  rw [← W2_arg4 m ρ c]
  generalize W2 (F := Ideal) m ρ c = Wv
  after_results
  unfold Cert.Spec.inv2 Cert.Spec.cnt2
  rfl

theorem V3_v41 (c : Dev nD) : V3 (F := Ideal) m ρ c main_v41
    = Cert.Spec.own2 (Cert.Spec.hidK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  show StableHlo.after hostOps1 (W2 m ρ c) (Proc.devRef .tc main_v41) = _
  rw [← W2_hidden m ρ c]
  generalize W2 (F := Ideal) m ρ c = Wv
  after_results
  unfold Cert.Spec.own2
  rfl

theorem V3_arg8 (c : Dev nD) : V3 (F := Ideal) m ρ c main_arg8 = (m ((c : Thread nD τ).loc main_arg8)) := by
  show StableHlo.after hostOps1 (W2 m ρ c) (Proc.devRef .tc main_arg8) = _
  rw [← W2_arg8 m ρ c]
  generalize W2 (F := Ideal) m ρ c = Wv
  after_results

theorem V3_v42 (c : Dev nD) : V3 (F := Ideal) m ρ c main_v42 = shapeCast S1x128 (m ((c : Thread nD τ).loc main_arg9)) Facts₀.shapeCasts_S128_S1x128 := by
  show StableHlo.after hostOps1 (W2 m ρ c) (Proc.devRef .tc main_v42) = _
  rw [← W2_arg9 m ρ c]
  generalize W2 (F := Ideal) m ρ c = Wv
  after_results
  rfl

theorem V3_arg10 (c : Dev nD) : V3 (F := Ideal) m ρ c main_arg10 = (m ((c : Thread nD τ).loc main_arg10)) := by
  show StableHlo.after hostOps1 (W2 m ρ c) (Proc.devRef .tc main_arg10) = _
  rw [← W2_arg10 m ρ c]
  generalize W2 (F := Ideal) m ρ c = Wv
  after_results

/-- After the second region the result array is the kernel program's function of the arguments. -/
theorem W4_result (c : Dev nD) :
    W4 (F := Ideal) m ρ c (Proc.devRef .tc main_v43)
      = Cert.Spec.kernelFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans
    (region1_named (V3 m ρ) c _ _ _ _ _ _ (V3_v31 m ρ c) (V3_v40 m ρ c) (V3_v41 m ρ c) (V3_arg8 m ρ c) (V3_v42 m ρ c) (V3_arg10 m ρ c))

end Cert.KernelIdeal.RegionValue

end
-- ==== Proof.RefValue.lean ====
/-
  The reference's result, read back: the composed term its run ends with is the function Spec.refFn of the eleven
  arguments — the same operations, with the shared host stretches (gathers, scatter sums, counts, slices) named.
-/
import proofs.«169818_j73787538145697_1_alg».proof.Proof.Gen.ReferenceIdeal.Run
import proofs.«169818_j73787538145697_1_alg».proof.Proof.Gen.KernelIdeal
import proofs.«169818_j73787538145697_1_alg».proof.Proof.Spec

noncomputable section

namespace Cert.ReferenceIdeal.RefValue

open Cert.ReferenceIdeal Cert.ReferenceIdeal.Gen
open Idealize.ShloMosaic Idealize.ShloMosaic.TcCoe Idealize.SL.Sem

/-- The reference's composed result term is `Spec.refFn` of the argument arrays. -/
theorem res_eq (m : (ℓ : Loc nD τ sig) → Buf (Elt Ideal) ℓ) (c : Dev nD) :
    Cert.ReferenceIdeal.Value.res_main_v52 (F := Ideal) m c
      = Cert.Spec.refFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v52
  rfl

end Cert.ReferenceIdeal.RefValue

end
-- ==== Proof.lean ====
/-
  The certificate of a two-layer mean-aggregating graph network: a kernel program with one Pallas kernel per layer
  against a plain reference.

  Each layer gathers the source rows of its edges, adds them into their target nodes, counts each target's edges and
  returns (sum / max(count, 1)) · Wl + b + own · Wr, the first layer followed by the rectifier. The gathers, scatter
  sums, counts and slices are host operations in both programs; only the dense part of a layer runs in a kernel, on
  blocks of rows, with the reciprocal 1 / max(count, 1) handed over as a column and multiplied in, the two matrix
  products added before the bias, and the operands narrowed to a 16-bit format before each product.

  At the ideal values a change of float format is the identity, a block product into a zero accumulator is the same sum
  as the host's product, a quotient by the (nonzero) clipped count is the product with its reciprocal — on every extended
  real, so no finiteness of the inputs is used — and the three summands may be added in either order. Hence each
  kernel's output array, block by block, is the reference's layer of the same inputs, the first layers' outputs are one
  array, and the second layers' too.

  The three frames: the two kernel programs' are the generated frame certificates; the reference's is its run with
  the result dropped. The ideal pass rewrote nothing, so the kernel's idealization claim is trivial.
-/
import proofs.«169818_j73787538145697_1_alg».proof.Defs
import proofs.«169818_j73787538145697_1_alg».proof.Proof.Gen.Kernel
import proofs.«169818_j73787538145697_1_alg».proof.Proof.Gen.Kernel.Frame
import proofs.«169818_j73787538145697_1_alg».proof.Proof.Gen.KernelIdeal
import proofs.«169818_j73787538145697_1_alg».proof.Proof.Gen.KernelIdeal.Frame
import proofs.«169818_j73787538145697_1_alg».proof.Proof.Gen.ReferenceIdeal
import proofs.«169818_j73787538145697_1_alg».proof.Proof.Gen.ReferenceIdeal.Run
import proofs.«169818_j73787538145697_1_alg».proof.Proof.Gen.Pre_finite_inputs
import proofs.«169818_j73787538145697_1_alg».proof.Proof.KernelRun
import proofs.«169818_j73787538145697_1_alg».proof.Proof.KernelValue
import proofs.«169818_j73787538145697_1_alg».proof.Proof.RefValue
import proofs.«169818_j73787538145697_1_alg».proof.Proof.Spec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel program's function of the arguments in their result buffers: the kernel
    program by its run read back through its two regions, the reference because its composed term is the same
    function of arguments that agree. -/
theorem algebraic : Cert.algebraic_KernelIdeal_ReferenceIdeal := by
  intro m ρ m' ρ' _ hagree
  refine ⟨fun c => Cert.Spec.kernelFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.RegionValue.W4_result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.res_eq, h0, h1, h2, h3, h4, h5, h6, h7, h8, h9, h10]
    exact (Cert.Spec.kernelFn_eq_refFn _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
